-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S256x16 : Shape := ⟨2, ![256, 16]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S16384x4096 .f32) (main_arg1 : IVec S256x16 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S256x16 32 := broadcastInDim S256x16 ![] bcast_S_S256x16 main_c_0
  let main_v5 : IVec S256x16 1 := cmpi .sge main_arg1 main_v4
  let main_c_1 : IVec S_ 32 := constantI S_ 32 4096#32
  let main_v6 : IVec S256x16 32 := broadcastInDim S256x16 ![] bcast_S_S256x16 main_c_1
  let main_v7 : IVec S256x16 1 := cmpi .slt main_arg1 main_v6
  let main_v8 : IVec S256x16 1 := andi main_v5 main_v7
  let main_c_2 : IVec S_ 1 := constantI S_ 1 1#1
  let main_v9 : IVec S_ 1 := (fun x v => Host.reduce IntOp.andi x v reducesTo_S256x16_S_d0_1 h_S_) main_v8 main_c_2
  let main_v10 : IVec S_ 1 := andi main_v3 main_v9
  main_v10
-- ==== Kernel.lean ====
abbrev S16384x4096 : Shape := ⟨2, ![16384, 4096]⟩
abbrev S256x16 : Shape := ⟨2, ![256, 16]⟩
abbrev S4096 : Shape := ⟨1, ![4096]⟩
abbrev S256x16x1 : Shape := ⟨3, ![256, 16, 1]⟩
abbrev S1x1x4096 : Shape := ⟨3, ![1, 1, 4096]⟩
abbrev S256x16x4096 : Shape := ⟨3, ![256, 16, 4096]⟩
abbrev S_ : Shape := ⟨0, ![]⟩
abbrev S256x4096 : Shape := ⟨2, ![256, 4096]⟩
abbrev S4096x256 : Shape := ⟨2, ![4096, 256]⟩
abbrev S16x1x1024 : Shape := ⟨3, ![16, 1, 1024]⟩
abbrev S1024x4096 : Shape := ⟨2, ![1024, 4096]⟩
abbrev S1x1x1024 : Shape := ⟨3, ![1, 1, 1024]⟩
abbrev S1024x256 : Shape := ⟨2, ![1024, 256]⟩
abbrev S1024x512 : Shape := ⟨2, ![1024, 512]⟩
abbrev S512x256 : Shape := ⟨2, ![512, 256]⟩
abbrev S1024 : Shape := ⟨1, ![1024]⟩
abbrev S1024x1 : Shape := ⟨2, ![1024, 1]⟩
abbrev S1x1024 : Shape := ⟨2, ![1, 1024]⟩
abbrev S16384 : Shape := ⟨1, ![16384]⟩

abbrev nBuf : Space → Nat
  | .hbm => 19
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S256x16, .i32⟩
  | .hbm, ⟨2, _⟩ => ⟨S4096, .i32⟩
  | .hbm, ⟨3, _⟩ => ⟨S256x16x1, .i32⟩
  | .hbm, ⟨4, _⟩ => ⟨S1x1x4096, .i32⟩
  | .hbm, ⟨5, _⟩ => ⟨S256x16x4096, .i32⟩
  | .hbm, ⟨6, _⟩ => ⟨S256x16x4096, .i32⟩
  | .hbm, ⟨7, _⟩ => ⟨S256x16x4096, .i1⟩
  | .hbm, ⟨8, _⟩ => ⟨S256x16x4096, .f32⟩
  | .hbm, ⟨9, _⟩ => ⟨S_, .f32⟩
  | .hbm, ⟨10, _⟩ => ⟨S256x4096, .f32⟩
  | .hbm, ⟨11, _⟩ => ⟨S4096x256, .f32⟩
  | .hbm, ⟨12, _⟩ => ⟨S4096x256, .bf16⟩
  | .hbm, ⟨13, _⟩ => ⟨S16x1x1024, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S16384, .i1⟩
  | .local _ .vmem, ⟨0, _⟩ => ⟨S1024x4096, .f32⟩
  | .local _ .vmem, ⟨1, _⟩ => ⟨S1024x4096, .f32⟩
  | .local _ .vmem, ⟨2, _⟩ => ⟨S4096x256, .bf16⟩
  | .local _ .vmem, ⟨3, _⟩ => ⟨S1x1x1024, .i32⟩
  | .local _ .vmem, ⟨4, _⟩ => ⟨S1x1x1024, .i32⟩
  | .local _ .vmem, ⟨5, _⟩ => ⟨S1024x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32_13 : BitVec 32 := 0#32
  let c0_i32 : BitVec 32 := 0#32
  let c1_i32 : BitVec 32 := 1#32
  let arg5 : BitVec 32 := Scf.iv c0_i32 c1_i32 k0_t1
  let c1_i32_12 : BitVec 32 := 1#32
  let v19 : BitVec 32 := Scalar.muli arg5 c1_i32_12
  let v20 : BitVec 32 := Scalar.addi c0_i32_13 v19
  let c512_i32 : BitVec 32 := 512#32
  let v21 : BitVec 32 := Scalar.muli v20 c512_i32
  v21
def k0_off1 (k0_t1 : Fin k0_t1_loop.trips) : Fin 2 → Nat :=
  let c0_14 : Index := 0#32
  let c0_i32_13 : BitVec 32 := 0#32
  let c0_i32 : BitVec 32 := 0#32
  let c1_i32 : BitVec 32 := 1#32
  let arg5 : BitVec 32 := Scf.iv c0_i32 c1_i32 k0_t1
  let c1_i32_12 : BitVec 32 := 1#32
  let v19 : BitVec 32 := Scalar.muli arg5 c1_i32_12
  let v20 : BitVec 32 := Scalar.addi c0_i32_13 v19
  let c512_i32 : BitVec 32 := 512#32
  let v21 : BitVec 32 := Scalar.muli v20 c512_i32
  let v22 : BitVec 32 := v21
  let v23 : Index := Scalar.indexCast v22
  ![0, v23.toNat]
def k0_off2 (k0_t1 : Fin k0_t1_loop.trips) : Fin 2 → Nat :=
  let c0_i32_13 : BitVec 32 := 0#32
  let c0_i32 : BitVec 32 := 0#32
  let c1_i32 : BitVec 32 := 1#32
  let arg5 : BitVec 32 := Scf.iv c0_i32 c1_i32 k0_t1
  let c1_i32_12 : BitVec 32 := 1#32
  let v19 : BitVec 32 := Scalar.muli arg5 c1_i32_12
  let v20 : BitVec 32 := Scalar.addi c0_i32_13 v19
  let c512_i32 : BitVec 32 := 512#32
  let v21 : BitVec 32 := Scalar.muli v20 c512_i32
  let v22 : BitVec 32 := v21
  let v30 : Index := Scalar.indexCast v22
  let c0_16 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S256x16_S256x16x1_0_1 : S256x16.BroadcastsInDim S256x16x1 (![0, 1] : Fin 2 → Fin S256x16x1.rank)
  bcast_S4096_S1x1x4096_2 : S4096.BroadcastsInDim S1x1x4096 (![2] : Fin 1 → Fin S1x1x4096.rank)
  bcast_S256x16x1_S256x16x4096_0_1_2 : S256x16x1.BroadcastsInDim S256x16x4096 (![0, 1, 2] : Fin 3 → Fin S256x16x4096.rank)
  bcast_S1x1x4096_S256x16x4096_0_1_2 : S1x1x4096.BroadcastsInDim S256x16x4096 (![0, 1, 2] : Fin 3 → Fin S256x16x4096.rank)
  reducesTo_S256x16x4096_S256x4096_d1 : S256x16x4096.ReducesTo [1] S256x4096
  h_S_ : 0 < S_.numel
  transposes_S256x4096_S4096x256_1_0 : S256x4096.Transposes [1, 0] S4096x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1024x512 : 0 < S1024x512.numel
  natLt_1_32 : 1 < 32
  h_S512x256 : 0 < S512x256.numel
  shapeCasts_S512x256_S512x256 : S512x256.ShapeCasts S512x256
  reduces_S1024x256_S1024 : S1024x256.Reduces [1] S1024
  shapeCasts_S1024_S1024x1 : S1024.ShapeCasts S1024x1
  transposes_S1024x1_p1_0_S1x1024 : S1024x1.Transposes [1, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384 : S16x1x1024.ShapeCasts S16384
  bcast_S_S16384 : S_.BroadcastsInDim S16384 (![] : Fin 0 → Fin S16384.rank)
  dot_S1024x512_S512x256_S1024x256_1_0_0_1_n_n_wf : DotDims.WF S1024x512 S512x256 S1024x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1024x512.size a ≤ S1024x4096.size a
  k0_off2_inb : ∀ k0_t1 : Fin k0_t1_loop.trips, ∀ a, (k0_off2 k0_t1) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x1024.size a
  hwx0_2 : ∀ i : grid0.Coords, EltTy.bits .i32 = 32 ∨ (Rect.block (s := S16x1x1024) S1x1x1024.size (cc0_transform_2 i) (hinb0_2 i)).WholeWords (EltTy.packing .i32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S256x16 : Shape := ⟨2, ![256, 16]⟩
abbrev S_ : Shape := ⟨0, ![]⟩
abbrev S256x16x1 : Shape := ⟨3, ![256, 16, 1]⟩
abbrev S16384x256x16 : Shape := ⟨3, ![16384, 256, 16]⟩
abbrev S16384x256 : Shape := ⟨2, ![16384, 256]⟩
abbrev S16384 : Shape := ⟨1, ![16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S256x16, .i32⟩
  | .hbm, ⟨2, _⟩ => ⟨S_, .f32⟩
  | .hbm, ⟨3, _⟩ => ⟨S16384x4096, .f32⟩
  | .hbm, ⟨4, _⟩ => ⟨S16384x4096, .i1⟩
  | .hbm, ⟨5, _⟩ => ⟨S_, .i32⟩
  | .hbm, ⟨6, _⟩ => ⟨S256x16, .i32⟩
  | .hbm, ⟨7, _⟩ => ⟨S256x16, .i1⟩
  | .hbm, ⟨8, _⟩ => ⟨S_, .i32⟩
  | .hbm, ⟨9, _⟩ => ⟨S256x16, .i32⟩
  | .hbm, ⟨10, _⟩ => ⟨S256x16, .i32⟩
  | .hbm, ⟨11, _⟩ => ⟨S256x16, .i32⟩
  | .hbm, ⟨12, _⟩ => ⟨S256x16x1, .i32⟩
  | .hbm, ⟨13, _⟩ => ⟨S16384x256x16, .i1⟩
  | .hbm, ⟨14, _⟩ => ⟨S_, .i1⟩
  | .hbm, ⟨15, _⟩ => ⟨S16384x256, .i1⟩
  | .hbm, ⟨16, _⟩ => ⟨S_, .i1⟩
  | .hbm, ⟨17, _⟩ => ⟨S16384, .i1⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S_S256x16 : S_.BroadcastsInDim S256x16 (![] : Fin 0 → Fin S256x16.rank)
  bcast_S256x16_S256x16x1_0_1 : S256x16.BroadcastsInDim S256x16x1 (![0, 1] : Fin 2 → Fin S256x16x1.rank)
  reducesTo_S16384x256x16_S16384x256_d2 : S16384x256x16.ReducesTo [2] S16384x256
  h_S_ : 0 < S_.numel
  reducesTo_S16384x256_S16384_d1 : S16384x256.ReducesTo [1] S16384
  gather_S16384x4096_S256x16x1_S16384x256x16_0_1_n_n_1_2_163841_wf : GatherDims.WF S16384x4096 S256x16x1 S16384x256x16 [0] [1] [] [1] [] 2 ![16384, 1]

variable [Facts₀]

def gather_S16384x4096_S256x16x1_S16384x256x16_0_1_n_n_1_2_163841 : GatherDims S16384x4096 S256x16x1 S16384x256x16 where
  offsetDims := [0]
  collapsedSliceDims := [1]
  operandBatchingDims := []
  startIndicesBatchingDims := []
  startIndexMap := [1]
  indexVectorDim := 2
  sliceSizes := ![16384, 1]
  wf := gather_S16384x4096_S256x16x1_S16384x256x16_0_1_n_n_1_2_163841_wf

class Facts : Prop extends Facts₀ where

variable [Facts]
-- ==== Proof.Body.lean ====
/-
  What one grid point of the matching kernel leaves in its output block, as a pure function of the point's two input
  blocks.

  The body zeroes a [1024, 256] accumulator, then makes eight trips; trip k reads columns 512·k … 512·k + 511 of the
  [1024, 4096] block of thresholded features and rows 512·k … 512·k + 511 of the [4096, 256] count table, and adds
  their product to the accumulator. After the last trip the accumulator is compared with the pattern length and
  reduced along the patterns into the [1, 1, 1024] output block.

  Here the accumulator after k trips is named (`accum`), and the output block is shown to be the body's last
  payload applied to the accumulator after all the trips.
-/
import proofs.«407068_j70205535421126_3_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The zero offsets of a rank-two whole-buffer access are the constant zero. -/
theorem zero2 : (![0, 0] : Fin 2 → Nat) = fun _ => 0 :=
  funext fun a => match a with | ⟨0, _⟩ => rfl | ⟨1, _⟩ => rfl

/-- The zero offsets of a rank-three whole-buffer access are the constant zero. -/
theorem zero3 : (![0, 0, 0] : Fin 3 → Nat) = fun _ => 0 :=
  funext fun a => match a with | ⟨0, _⟩ => rfl | ⟨1, _⟩ => rfl | ⟨2, _⟩ => rfl

/-- The accumulator after `k` trips: zero before the first, and after trip `k` the sum of what it held and the
    product of the trip's slice of the feature block with the trip's slice of the count table. -/
def accum (x0 : Vec F S1024x4096 .f32) (x1 : Vec F S4096x256 .bf16) : ℕ → Vec F S1024x256 .f32
  | 0 => k0_pay1
  | k + 1 =>
    if h : k < k0_t1_loop.trips then
      k0_pay2 (View.ld x0 (Rect.unit (s := S1024x4096) (k0_off1 ⟨k, h⟩) S1024x512.size (k0_off1_inb ⟨k, h⟩)))
        (View.ld x1 (Rect.unit (s := S4096x256) (k0_off2 ⟨k, h⟩) S512x256.size (k0_off2_inb ⟨k, h⟩))) (accum x0 x1 k)
    else accum x0 x1 k

/-- One trip stores one piece: through the whole accumulator, the trip's payload of its three loads. -/
theorem tripL_eq (𝒱 : Variants) (c : Dev nD) (bd : Option 𝒱.V) (i : grid0.Coords) (arg1 : Memref sig .tc .vmem S1024x4096 .f32) (harg1 : arg1.IsWhole) (arg2 : Memref sig .tc .vmem S4096x256 .bf16) (harg2 : arg2.IsWhole) (arg3 : Memref sig .tc .vmem S1x1x1024 .i32) (harg3 : arg3.IsWhole) (arg4 : Memref sig .tc .vmem S1024x256 .f32) (harg4 : arg4.IsWhole) (X_arg1 : BufTy.Contents (Elt F) arg1.view.ty) (X_arg2 : BufTy.Contents (Elt F) arg2.view.ty) (k : Fin k0_t1_loop.trips) (f_arg4 : BufTy.Contents (Elt F) arg4.view.ty) :
    tripL_k0_t1 (F := F) 𝒱 c bd i arg1 harg1 arg2 harg2 arg3 harg3 arg4 harg4 X_arg1 X_arg2 k f_arg4
      = [⟨Rect.unit (s := S1024x256) ![0, 0] S1024x256.size inb_S1024x256_S1024x256_0_0,
          k0_pay2 (View.readAt (Elt F) arg1.view (Rect.unit (s := S1024x4096) (k0_off1 k) S1024x512.size (k0_off1_inb k)).toLoadRect X_arg1)
            (View.readAt (Elt F) arg2.view (Rect.unit (s := S4096x256) (k0_off2 k) S512x256.size (k0_off2_inb k)).toLoadRect X_arg2)
            (View.readAt (Elt F) arg4.view (Rect.unit (s := S1024x256) ![0, 0] S1024x256.size inb_S1024x256_S1024x256_0_0).toLoadRect f_arg4)⟩] := by
  unfold tripL_k0_t1 trip_k0_t1
  rfl

/-- The accumulator's zeroing store: the whole buffer, the zero payload. -/
abbrev initPiece : View.Piece (Elt F) S1024x256 .f32 :=
  ⟨Rect.unit (s := S1024x256) ![0, 0] S1024x256.size inb_S1024x256_S1024x256_0_0, k0_pay1⟩

/-- What the stores of the first `k` trips, over the zeroing store, leave in the accumulator: `accum` at `k`.
    Each trip stores through the whole buffer, so the last store decides; its payload reads the trip's two slices of
    the input blocks and, through the whole buffer, what the trips before left. -/
theorem canon_trips (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S1x1x1024 .i32) (harg3 : arg3.IsWhole) (arg4 : Memref sig .tc .vmem S1024x256 .f32) (harg4 : arg4.IsWhole)
    (x0 : Vec F S1024x4096 .f32) (x1 : Vec F S4096x256 .bf16) : ∀ k : ℕ,
    View.canon (pb_k0_t1 (F := F) Variants.none c none i arg1 harg1 arg2 harg2 arg3 harg3 arg4 harg4 (harg1.unread x0) (harg2.unread x1)
        (arg4.view.writes (Elt F) arg4.view.junk [initPiece]) k ++ [initPiece]) = accum x0 x1 k
  | 0 => by
    rw [pb_k0_t1.eq_1, List.nil_append]
    exact View.canon_unit_zero zero2 _ _
  | k + 1 => by
    rw [pb_k0_t1.eq_2]
    unfold pb_k0_t1Step
    rw [accum]
    by_cases h : k < k0_t1_loop.trips
    · rw [dif_pos h, dif_pos h, tripL_eq, List.append_assoc, List.singleton_append]
      rw [View.canon_cons_unit_zero zero2]
      congr 1
      · rw [View.readAt_eq_ld, harg1.read_unread]
      · rw [View.readAt_eq_ld, harg2.read_unread]
      · rw [← View.writes_append, View.readAt_writes_junk_eq_canon, canon_trips c i arg1 harg1 arg2 harg2 arg3 harg3 arg4 harg4 x0 x1 k]
        exact View.ld_unit_zero zero2 _ _
    · rw [dif_neg h, dif_neg h]
      exact canon_trips c i arg1 harg1 arg2 harg2 arg3 harg3 arg4 harg4 x0 x1 k

/-- What the body leaves in the output block: its last payload — the comparison with the pattern length, the
    reduction along the patterns and the re-laying into a row — of the accumulator after all the trips. -/
theorem out_eq (c : Dev nD) (i : grid0.Coords) (arg1 : Memref sig .tc .vmem S1024x4096 .f32) (harg1 : arg1.IsWhole) (arg2 : Memref sig .tc .vmem S4096x256 .bf16) (harg2 : arg2.IsWhole) (arg3 : Memref sig .tc .vmem S1x1x1024 .i32) (harg3 : arg3.IsWhole) (arg4 : Memref sig .tc .vmem S1024x256 .f32) (harg4 : arg4.IsWhole)
    (x0 : Vec F S1024x4096 .f32) (x1 : Vec F S4096x256 .bf16) :
    out0_A_2 (F := F) c i arg1 harg1 arg2 harg2 arg3 harg3 arg4 harg4 x0 x1 = k0_pay3 (accum x0 x1 k0_t1_loop.trips) := by
  unfold out0_A_2
  rw [View.read_writes_eq_canon _ _ _ (cover0_A_2 c i arg1 harg1 arg2 harg2 arg3 harg3 arg4 harg4 x0 x1)]
  unfold kernelRun0_A
  dsimp only
  sl_unfold_run_names
  rw [View.canon_unit_zero zero3]
  congr 1
  rw [View.readAt_writes_junk_eq_canon]
  rw [show Scf.trips k0_t1_loop.lb k0_t1_loop.ub k0_t1_loop.st = k0_t1_loop.trips from rfl,
    canon_trips c i arg1 harg1 arg2 harg2 arg3 harg3 arg4 harg4 x0 x1 k0_t1_loop.trips]
  exact View.ld_unit_zero zero2 _ _

end Cert.KernelIdeal.Body

end
-- ==== Proof.Count.lean ====
/-
  Counting with extended reals.

  Every number the matching kernel adds or multiplies is a natural number (a 0/1 feature bit, the number of times a
  pattern names a feature, a sum of such products) read as an extended real. Such readings add and multiply as the
  naturals do, so a sum of them is equal to the pattern length exactly when the natural sum is.

  The law that joins the two programs is a double count: weighting feature f by the number of the pattern's entries
  equal to f and summing over all features counts, entry by entry, the features the pattern names. For weights in
  {0, 1} the count reaches the number of entries exactly when every named feature has weight 1.
-/
import Idealize.ShloMosaic.PureOps.Ideal.Laws
import Idealize.ShloMosaic.Lib.ValueIdx

noncomputable section

namespace Cert.Match

open Idealize.ShloMosaic Idealize.ShloMosaic.ValueIdx
open scoped BigOperators

/-- A natural number read as an extended real. -/
def cnt (n : ℕ) : EReal := ((n : ℝ) : EReal)

theorem cnt_zero : cnt 0 = 0 := by unfold cnt; rw [Nat.cast_zero]; rfl

theorem cnt_one : cnt 1 = 1 := by unfold cnt; rw [Nat.cast_one]; rfl

theorem cnt_add (a b : ℕ) : cnt a + cnt b = cnt (a + b) := by
  unfold cnt; rw [← EReal.coe_add, Nat.cast_add]

theorem cnt_mul (a b : ℕ) : cnt a * cnt b = cnt (a * b) := by
  unfold cnt; rw [← EReal.coe_mul, Nat.cast_mul]

theorem cnt_sum {ι : Type*} (s : Finset ι) (f : ι → ℕ) : ∑ i ∈ s, cnt (f i) = cnt (∑ i ∈ s, f i) := by
  classical
  induction s using Finset.induction_on with
  | empty => rw [Finset.sum_empty, Finset.sum_empty, cnt_zero]
  | insert a s ha ih => rw [Finset.sum_insert ha, Finset.sum_insert ha, ih, cnt_add]

theorem cnt_inj {a b : ℕ} : cnt a = cnt b ↔ a = b := by
  unfold cnt; rw [EReal.coe_eq_coe_iff]; exact Nat.cast_inj

/-- The double count: weighting each feature `f` by how many entries `p` of a pattern name it (`sel p = f`) and
    summing over the features is summing the weights of the named features over the entries. -/
theorem sum_mul_count {N P : ℕ} (μ : Fin N → ℕ) (sel : Fin P → Fin N) :
    ∑ f : Fin N, μ f * (∑ p : Fin P, if sel p = f then 1 else 0) = ∑ p : Fin P, μ (sel p) := by
  simp_rw [Finset.mul_sum]
  rw [Finset.sum_comm]
  refine Finset.sum_congr rfl fun p _ => ?_
  simp only [mul_ite, mul_one, mul_zero]
  rw [Finset.sum_ite_eq, if_pos (Finset.mem_univ _)]

/-- Weights in {0, 1} over `P` entries add up to `P` exactly when every one of them is 1. -/
theorem sum_eq_card_iff {P : ℕ} (ν : Fin P → ℕ) (h : ∀ p, ν p ≤ 1) : ∑ p : Fin P, ν p = P ↔ ∀ p, ν p = 1 := by
  have key := Finset.sum_eq_sum_iff_of_le (s := (Finset.univ : Finset (Fin P))) (f := ν) (g := fun _ => 1) (fun i _ => h i)
  simpa using key

end Cert.Match

end
-- ==== Proof.Pay.lean ====
/-
  The kernel's two arithmetic payloads read at an entry, over the extended reals.

  One trip's payload: entry (r, q) of the accumulator grows by the sum over the trip's 512 features f of the feature
  bit (the input above one half, as 0 or 1) times the table's entry (f, q). The product is a matrix product into a zero
  accumulator with the features contracted, so at an entry it is a plain sum.
-/
import proofs.«407068_j70205535421126_3_alg».proof.Proof.Gen.KernelIdeal.Skeleton
import proofs.«407068_j70205535421126_3_alg».proof.Proof.Count
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx
open Cert.KernelIdeal Cert.KernelIdeal.Gen Cert.Match
open scoped BigOperators

/-- The threshold the features are compared with: the word of one half. -/
abbrev half : EReal := Ideal.ofBits .f32 0x3F000000#32

/-- A feature bit as a number: 1 above the threshold, 0 otherwise. -/
def on (x : EReal) : ℕ := if half < x then 1 else 0

theorem on_le_one (x : EReal) : on x ≤ 1 := by unfold on; split <;> omega

/-- A widened comparison bit, converted to a float, is the bit as a number. -/
theorem bit_val (b : Bool) : ((((BitVec.ofBool b).setWidth 32).toInt : ℝ) : EReal) = cnt (if b then 1 else 0) := by
  cases b
  · have h : ((BitVec.ofBool false).setWidth 32).toInt = 0 := by decide
    rw [h]; simp [cnt]
  · have h : ((BitVec.ofBool true).setWidth 32).toInt = 1 := by decide
    rw [h]; simp [cnt]

/-- The trip's product, named: features contracted, rows of the feature block against columns of the table. -/
abbrev D := dot_S1024x512_S512x256_S1024x256_1_0_0_1_n_n

theorem lhs_0 (j : S1024x256.Idx) (k : D.contr.Idx) : (D.lhsIdx j k 0).val = (j 0).val := by
  unfold DotDims.lhsIdx
  rw [dif_neg (show ¬(0 : Fin S1024x512.rank) ∈ D.lhsBatch by decide),
    dif_pos (show (0 : Fin S1024x512.rank) ∈ D.lhsNonContracting by decide)]
  rfl

theorem lhs_1 (j : S1024x256.Idx) (k : D.contr.Idx) :
    (D.lhsIdx j k 1).val = (k ⟨0, by decide⟩).val :=
  DotDims.lhsIdx_val_of_single D (cl := 1) rfl j k

theorem rhs_0 (j : S1024x256.Idx) (k : D.contr.Idx) :
    (D.rhsIdx j k 0).val = (k ⟨0, by decide⟩).val :=
  DotDims.rhsIdx_val_of_single D (cr := 0) rfl j k

theorem rhs_1 (j : S1024x256.Idx) (k : D.contr.Idx) : (D.rhsIdx j k 1).val = (j 1).val := by
  unfold DotDims.rhsIdx
  rw [dif_neg (show ¬(1 : Fin S512x256.rank) ∈ D.rhsBatch by decide),
    dif_pos (show (1 : Fin S512x256.rank) ∈ D.rhsNonContracting by decide)]
  rfl

/-- The product into a zero accumulator at entry (r, q): the sum over the 512 contracted features. -/
theorem matmul_entry (l : FVec Ideal S1024x512 .bf16) (t : FVec Ideal S512x256 .bf16) (r : Fin 1024) (q : Fin 256) :
    matmul D none l t (constant S1024x256 .f32 0x00000000#32) (ix2 r q) = ∑ f : Fin 512, l (ix2 r f) * t (ix2 f q) := by
  simp only [matmul]
  rw [Ideal.matmul_constant_zero_apply, ← Equiv.sum_comp (contrEquiv1 D 512 (by decide) (by decide)).symm]
  refine Finset.sum_congr rfl fun f _ => ?_
  have hk := contrEquiv1_symm_val D 512 (by decide) (by decide) f
  congr 2
  · exact Shape.idx_ext₂ (lhs_0 _ _) ((lhs_1 _ _).trans hk)
  · exact Shape.idx_ext₂ ((rhs_0 _ _).trans hk) (rhs_1 _ _)

/-- One trip's payload at entry (r, q): what the accumulator held there plus the sum over the trip's features of the
    feature bit times the table entry. -/
theorem pay2_entry (v24 : FVec Ideal S1024x512 .f32) (v31 : FVec Ideal S512x256 .bf16) (v34 : FVec Ideal S1024x256 .f32)
    (r : Fin 1024) (q : Fin 256) :
    k0_pay2 (F := Ideal) v24 v31 v34 (ix2 r q) = v34 (ix2 r q) + ∑ f : Fin 512, cnt (on (v24 (ix2 r f))) * v31 (ix2 f q) := by
  unfold k0_pay2
  rw [shapeCast_self, shapeCast_self]
  show v34 (ix2 r q) + matmul D none _ v31 (constant S1024x256 .f32 0x00000000#32) (ix2 r q) = _
  rw [matmul_entry]
  refine congrArg (v34 (ix2 r q) + ·) (Finset.sum_congr rfl fun f _ => ?_)
  refine congrArg (· * v31 (ix2 f q)) ?_
  show ((((Ideal.cmp .ogt (v24 (ix2 r f)) half).setWidth 32).toInt : ℝ) : EReal) = _
  unfold Ideal.cmp on
  rw [bit_val]
  simp only [decide_eq_true_eq]

/-- The zeroing payload is zero everywhere. -/
theorem pay1_entry (j : S1024x256.Idx) : k0_pay1 (F := Ideal) j = 0 := by
  unfold k0_pay1
  rw [shapeCast_self]
  exact Ideal.ofBits_zero_f32

end Cert.KernelIdeal.Pay

end
-- ==== Proof.Acc.lean ====
/-
  The accumulator after all eight trips, at an entry, over the extended reals: entry (r, q) is the sum over ALL 4096
  features f of the feature bit of input (r, f) times the table's entry (f, q).

  Trip k reads features 512·k … 512·k + 511, so after k trips the entry holds the sum over the first 512·k features;
  the trips partition the features in order.
-/
import proofs.«407068_j70205535421126_3_alg».proof.Proof.Body
import proofs.«407068_j70205535421126_3_alg».proof.Proof.Pay

noncomputable section

namespace Cert.KernelIdeal.Acc

open Idealize.ShloMosaic Idealize.ShloMosaic.ValueIdx
open Cert.KernelIdeal Cert.KernelIdeal.Gen Cert.Match Cert.KernelIdeal.Body Cert.KernelIdeal.Pay
open scoped BigOperators

/-- The loop makes eight trips. -/
theorem trips_eq : k0_t1_loop.trips = 8 := by decide +kernel

/-- Trip `k`'s slice of the feature block, read at (r, f), is the block at (r, 512·k + f). -/
theorem slice0_idx (k : Fin k0_t1_loop.trips) (r : Fin 1024) (f : Fin 512) :
    (Rect.unit (s := S1024x4096) (k0_off1 k) S1024x512.size (k0_off1_inb k)).idx (ix2 r f)
      = ix2 r (⟨512 * k.val + f.val, by have := Nat.lt_of_lt_of_le k.isLt trips_eq.le; omega⟩ : Fin 4096) := by
  refine Shape.idx_ext₂ ?_ ?_
  · show k0_off1 k 0 + 1 * r.val = r.val
    rw [k0_off1_eq]; show 0 + 1 * r.val = r.val; omega
  · show k0_off1 k 1 + 1 * f.val = 512 * k.val + f.val
    rw [k0_off1_eq]; show 512 * k.val + 1 * f.val = _; omega

/-- Trip `k`'s slice of the table, read at (f, q), is the table at (512·k + f, q). -/
theorem slice1_idx (k : Fin k0_t1_loop.trips) (f : Fin 512) (q : Fin 256) :
    (Rect.unit (s := S4096x256) (k0_off2 k) S512x256.size (k0_off2_inb k)).idx (ix2 f q)
      = ix2 (⟨512 * k.val + f.val, by have := Nat.lt_of_lt_of_le k.isLt trips_eq.le; omega⟩ : Fin 4096) q := by
  refine Shape.idx_ext₂ ?_ ?_
  · show k0_off2 k 0 + 1 * f.val = 512 * k.val + f.val
    rw [k0_off2_eq]; show 512 * k.val + 1 * f.val = _; omega
  · show k0_off2 k 1 + 1 * q.val = q.val
    rw [k0_off2_eq]; show 0 + 1 * q.val = q.val; omega

/-- Feature `n`'s contribution to entry (r, q): its bit times the table's entry; nothing past the last feature. -/
def term (x0 : Vec Ideal S1024x4096 .f32) (x1 : Vec Ideal S4096x256 .bf16) (r : Fin 1024) (q : Fin 256) (n : ℕ) : EReal :=
  if h : n < 4096 then cnt (on (x0 (ix2 r ⟨n, h⟩))) * x1 (ix2 ⟨n, h⟩ q) else 0

/-- After `k` trips entry (r, q) of the accumulator is the sum of the first 512·k features' contributions. -/
theorem accum_entry (x0 : Vec Ideal S1024x4096 .f32) (x1 : Vec Ideal S4096x256 .bf16) (r : Fin 1024) (q : Fin 256) :
    ∀ k : ℕ, k ≤ 8 → accum (F := Ideal) x0 x1 k (ix2 r q) = ∑ n ∈ Finset.range (512 * k), term x0 x1 r q n
  | 0, _ => by
    rw [accum, pay1_entry]; simp
  | k + 1, hk => by
    have h : k < k0_t1_loop.trips := by rw [trips_eq]; omega
    rw [accum, dif_pos h, pay2_entry, accum_entry x0 x1 r q k (by omega), Nat.mul_succ, Finset.sum_range_add,
      ← Fin.sum_univ_eq_sum_range (fun i => term x0 x1 r q (512 * k + i)) 512]
    refine congrArg (_ + ·) (Finset.sum_congr rfl fun f _ => ?_)
    have hlt : 512 * k + f.val < 4096 := by have := f.isLt; omega
    rw [term, dif_pos hlt]
    show cnt (on (x0 ((Rect.unit (s := S1024x4096) (k0_off1 ⟨k, h⟩) S1024x512.size (k0_off1_inb ⟨k, h⟩)).idx (ix2 r f))))
        * x1 ((Rect.unit (s := S4096x256) (k0_off2 ⟨k, h⟩) S512x256.size (k0_off2_inb ⟨k, h⟩)).idx (ix2 f q)) = _
    rw [slice0_idx, slice1_idx]

/-- After all the trips entry (r, q) is the sum over every feature of its bit times the table's entry. -/
theorem accum_all (x0 : Vec Ideal S1024x4096 .f32) (x1 : Vec Ideal S4096x256 .bf16) (r : Fin 1024) (q : Fin 256) :
    accum (F := Ideal) x0 x1 k0_t1_loop.trips (ix2 r q) = ∑ f : Fin 4096, cnt (on (x0 (ix2 r f))) * x1 (ix2 f q) := by
  rw [trips_eq, accum_entry x0 x1 r q 8 (le_refl _), ← Fin.sum_univ_eq_sum_range (fun n => term x0 x1 r q n) (512 * 8)]
  refine Finset.sum_congr rfl fun f _ => ?_
  rw [term, dif_pos f.isLt]

end Cert.KernelIdeal.Acc

end
-- ==== Proof.LibRowLay.lean ====
/-
  A column of per-row results re-laid as a lane-dense row, read at an entry.

  A kernel that computes one word per row of a tile keeps it as an [a, 1] column, transposes the column to a [1, a]
  row and casts the row to the [1, 1, a] block it stores. Entry (0, 0, r) of the block is entry (0, r) of the row,
  which is entry (r, 0) of the column.
-/
import Idealize.ShloMosaic.Lib.Pipeline.Value
import Idealize.ShloMosaic.Lib.ValueIdx

noncomputable section

namespace Cert.LibRowLay

open Idealize.ShloMosaic Idealize.ShloMosaic.ValueIdx

variable {α : Type}

/-- A row [1, a] cast to the block [1, 1, a] reads, at (0, 0, r), the row's entry (0, r). -/
theorem shapeCast_1a_11a_apply {a : ℕ} (x : (⟨2, ![1, a]⟩ : Shape).Idx → α)
    (h : (⟨2, ![1, a]⟩ : Shape).ShapeCasts ⟨3, ![1, 1, a]⟩) (u v w : Fin 1) (r : Fin a) :
    shapeCast ⟨3, ![1, 1, a]⟩ x h (ix3 u v r) = x (ix2 w r) :=
  shapeCast_apply x h _ _ (by
    have hu : u.val = 0 := by omega
    have hv : v.val = 0 := by omega
    have hw : w.val = 0 := by omega
    rw [Shape.rowMajor_val_two, Shape.rowMajor_val_three]
    show w.val * a + r.val = (u.val * 1 + v.val) * a + r.val
    rw [hu, hv, hw])

/-- A column [a, 1] transposed to the row [1, a] reads, at (0, r), the column's entry (r, 0). -/
theorem transpose_a1_1a_apply {a : ℕ} (x : (⟨2, ![a, 1]⟩ : Shape).Idx → α)
    (h : (⟨2, ![a, 1]⟩ : Shape).Transposes [1, 0] ⟨2, ![1, a]⟩) (u : Fin 1) (r : Fin a) :
    transpose ⟨2, ![1, a]⟩ [1, 0] x h (ix2 u r) = x (ix2 r u) :=
  transpose_apply [1, 0] x h (ix2 u r) (ix2 r u) fun b =>
    match b with
    | ⟨0, _⟩ => rfl
    | ⟨1, _⟩ => rfl

end Cert.LibRowLay

end
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.LibRowReduce.lean ====
/-
  Row reductions kept as a column and broadcast back, read at an entry.

  jnp.max(x, axis=-1, keepdims=True) and jnp.sum(x, axis=-1, keepdims=True) of an [a, b] array lower to a
  reduction over axis 1 into [a], a cast to the column [a, 1], and (where the column meets an [a, c] array) a
  broadcast along the rows. At entry (r, d) of that [a, c] array sits the reduction of row r: the sum of its b
  entries, or their maximum folded from the accumulator's value.
-/
import proofs.«407068_j70205535421126_3_alg».proof.Proof.LibIx2
import Idealize.ShloMosaic.Lib.Pipeline.Value
import Idealize.ShloMosaic.Lib.ValueIdx
import Idealize.ShloMosaic.PureOps.Ideal.Laws

noncomputable section

namespace Cert.LibRowReduce

open Idealize.ShloMosaic Idealize.ShloMosaic.ValueIdx Cert.LibIx2
open scoped BigOperators

/-- A vector [a] cast to the column [a, 1] reads, at (r, u), the vector's entry r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- Over the reduced index r of an [a, b] array reduced along axis 1, the source index with coordinate k on
    that axis is (r, k). -/
theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- The row sums of an [a, b] array, kept as a column and broadcast to [a, c]: at (r, d), the sum of row r. -/
theorem rowSum_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .add [1] ⟨1, ![a]⟩ e acc h hφ hacc) hsc) hb (ix2 r d)
      = ∑ k : Fin b, e (ix2 r k) := by
  rw [broadcastTo_a1_ab_apply, shapeCast_a_a1_apply]
  refine (Ideal.multiReduction_add_single e acc h hφ hacc (ix1 r)).trans ?_
  show ∑ k : Fin b, e (h.lift (ix1 r) k) = _
  exact Finset.sum_congr rfl fun k _ => by rw [lift_row]

/-- The row maxima of an [a, b] array, kept as a column and broadcast to [a, c]: at (r, d), the maximum of row r
    folded from the accumulator's value. -/
theorem rowMax_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .maximumf [1] ⟨1, ![a]⟩ e acc h hφ hacc) hsc) hb (ix2 r d)
      = (Finset.univ : Finset (Fin b)).fold max (Ideal.ofBits φ acc) (fun k => e (ix2 r k)) := by
  rw [broadcastTo_a1_ab_apply, shapeCast_a_a1_apply]
  refine (Ideal.multiReduction_maximumf_single e acc h hφ hacc (ix1 r)).trans ?_
  show (Finset.univ : Finset (Fin b)).fold max (Ideal.ofBits φ acc) (fun k => e (h.lift (ix1 r) k)) = _
  exact congrArg (fun f => (Finset.univ : Finset (Fin b)).fold max (Ideal.ofBits φ acc) f) (funext fun (k : Fin b) => congrArg e (lift_row h r k))

end Cert.LibRowReduce

end
-- ==== Proof.Hit.lean ====
/-
  The kernel's last payload read at an entry, over the extended reals.

  From the accumulator the body marks each (row, pattern) entry 1.0 where it equals the pattern length and 0.0
  elsewhere, takes each row's maximum over the patterns starting from minus infinity, tests it against zero, and
  re-lays the resulting column of bits, widened to words, as a row. Word (0, 0, r) of the block is therefore 1
  exactly when some pattern's entry in row r equals the pattern length, and 0 otherwise.
-/
import proofs.«407068_j70205535421126_3_alg».proof.Proof.Gen.KernelIdeal.Skeleton
import proofs.«407068_j70205535421126_3_alg».proof.Proof.LibRowLay
import proofs.«407068_j70205535421126_3_alg».proof.Proof.LibRowReduce
import Idealize.ShloMosaic.Lib.Pipeline.Value
import Idealize.ShloMosaic.Lib.ValueIdx
import Idealize.ShloMosaic.PureOps.Ideal.Laws

noncomputable section

namespace Cert.KernelIdeal.Hit

open Idealize.ShloMosaic Idealize.ShloMosaic.ValueIdx
open Cert.KernelIdeal Cert.KernelIdeal.Gen Cert.LibRowLay Cert.LibRowReduce
open scoped BigOperators

/-- The pattern length as the kernel spells it: the word of 16.0. -/
abbrev sixteen : EReal := Ideal.ofBits .f32 0x41800000#32

theorem ofBits_one : Ideal.ofBits .f32 0x3F800000#32 = 1 := by
  simp [Ideal.ofBits, Ideal.ieee, -EReal.coe_mul]; norm_num

theorem ofBits_ninf : Ideal.ofBits .f32 0xFF800000#32 = ⊥ := by
  simp [Ideal.ofBits, Ideal.ieee]

/-- The mark of one entry is above zero exactly when the entry equals the pattern length. -/
theorem mark_pos (x : EReal) :
    (0 : EReal) < Scalar.select (Ideal.cmp .oeq x sixteen) (Ideal.ofBits .f32 0x3F800000#32) (Ideal.ofBits .f32 0x00000000#32)
      ↔ x = sixteen := by
  unfold Ideal.cmp
  by_cases h : x = sixteen
  · rw [show BitVec.ofBool (decide (x = sixteen)) = 1#1 by rw [decide_eq_true h]; rfl, select_one, ofBits_one]
    exact ⟨fun _ => h, fun _ => zero_lt_one⟩
  · rw [show BitVec.ofBool (decide (x = sixteen)) = 0#1 by rw [decide_eq_false h]; rfl, select_zero, Ideal.ofBits_zero_f32]
    exact ⟨fun h0 => absurd h0 (lt_irrefl _), fun h1 => absurd h1 h⟩

/-- A row's maximum over the patterns, folded from minus infinity. -/
theorem rowmax_entry (e : FVec Ideal S1024x256 .f32) (hφ : FKind.Formats .f32)
    (hacc : (0xFF800000#32 : BitVec 32) = 0xFF800000#32) (r : Fin 1024) :
    multiReduction .maximumf [1] S1024 e 0xFF800000#32 reduces_S1024x256_S1024 hφ hacc (ix1 r)
      = (Finset.univ : Finset (Fin 256)).fold max (Ideal.ofBits .f32 0xFF800000#32) (fun q => e (ix2 r q)) :=
  (Ideal.multiReduction_maximumf_single e 0xFF800000#32 reduces_S1024x256_S1024 hφ hacc (ix1 r)).trans
    (congrArg (fun f => (Finset.univ : Finset (Fin 256)).fold max (Ideal.ofBits .f32 0xFF800000#32) f)
      (funext fun (q : Fin 256) => congrArg e (lift_row reduces_S1024x256_S1024 r q)))

/-- Word (0, 0, r) of the output block: 1 when some pattern's entry in row r of the accumulator equals the pattern
    length, 0 otherwise. -/
theorem pay3_entry (v5 : FVec Ideal S1024x256 .f32) (r : Fin 1024) :
    k0_pay3 (F := Ideal) v5 (ix3 (0 : Fin 1) (0 : Fin 1) r)
      = (BitVec.ofBool (decide (∃ q : Fin 256, v5 (ix2 r q) = sixteen))).setWidth 32 := by
  unfold k0_pay3
  dsimp only
  rw [shapeCast_1a_11a_apply _ _ 0 0 0 r, transpose_a1_1a_apply, extui_apply, shapeCast_a_a1_apply]
  refine congrArg (BitVec.setWidth 32) ?_
  rw [cmpf_apply, rowmax_entry]
  show Ideal.cmp .ogt _ (Ideal.ofBits .f32 0x00000000#32) = _
  unfold Ideal.cmp
  refine congrArg BitVec.ofBool ?_
  rw [decide_eq_decide, Ideal.ofBits_zero_f32, Finset.lt_fold_max, ofBits_ninf]
  constructor
  · rintro (h | ⟨q, -, hq⟩)
    · exact absurd h not_lt_bot
    · exact ⟨q, (mark_pos _).1 hq⟩
  · rintro ⟨q, hq⟩
    exact Or.inr ⟨q, Finset.mem_univ _, (mark_pos _).2 hq⟩

end Cert.KernelIdeal.Hit

end
-- ==== Proof.Table.lean ====
/-
  The count table the kernel's host prologue builds from the pattern indices, read at an entry.

  The prologue compares every pattern entry idx[q, p] with every feature number f (an iota), converts the bits to
  floats, sums them over the entries p of a pattern, transposes and narrows: entry (f, q) of the table is the number
  of entries of pattern q equal to f, as an extended real.
-/
import proofs.«407068_j70205535421126_3_alg».proof.Proof.Gen.KernelIdeal
import proofs.«407068_j70205535421126_3_alg».proof.Proof.Count
import Idealize.ShloMosaic.Lib.Pipeline.Value
import Idealize.ShloMosaic.Lib.ValueIdx
import Idealize.ShloMosaic.PureOps.Ideal.Laws

noncomputable section

namespace Cert.KernelIdeal.Table

open Idealize.ShloMosaic Idealize.ShloMosaic.ValueIdx
open Cert.KernelIdeal Cert.KernelIdeal.Gen Cert.Match
open scoped BigOperators

/-- The comparison of every pattern entry with every feature number, as floats: [256, 16, 4096]. -/
def eqBits (idx : IVec S256x16 32) : FVec Ideal S256x16x4096 .f32 :=
  uitofp .f32 (cmpi .eq
    (broadcastInDim S256x16x4096 ![0, 1, 2] bcast_S256x16x1_S256x16x4096_0_1_2
      (broadcastInDim S256x16x1 ![0, 1] bcast_S256x16_S256x16x1_0_1 idx))
    (broadcastInDim S256x16x4096 ![0, 1, 2] bcast_S1x1x4096_S256x16x4096_0_1_2
      (broadcastInDim S1x1x4096 ![2] bcast_S4096_S1x1x4096_2 (iotaInDim S4096 32 0))))

/-- The table: the comparison summed over a pattern's entries, transposed to [4096, 256] and narrowed. -/
def tableOf (idx : IVec S256x16 32) : FVec Ideal S4096x256 .bf16 :=
  truncf .bf16 (transpose S4096x256 [1, 0]
    (Host.reduceAdd (F := Ideal) (eqBits idx) (constant (F := Ideal) S_ .f32 0x00000000#32) reducesTo_S256x16x4096_S256x4096_d1 h_S_)
    transposes_S256x4096_S4096x256_1_0) bitsLt_bf16_f32

/-- A comparison bit converted unsigned to a float is the bit as a number. -/
theorem eq_bit_val (a b : BitVec 32) : (((IntOp.cmpi .eq a b).toNat : ℝ) : EReal) = cnt (if a = b then 1 else 0) := by
  unfold IntOp.cmpi
  by_cases h : a = b
  · rw [if_pos h, h]; simp [cnt]
  · rw [if_neg h]
    have : (a == b) = false := by simpa using h
    rw [this]; simp [cnt]

/-- Entry (q, p, f) of the comparison: 1 when entry p of pattern q is feature f. -/
theorem eqBits_entry (idx : IVec S256x16 32) (q : Fin 256) (p : Fin 16) (f : Fin 4096) :
    eqBits idx (ix3 q p f) = cnt (if idx (ix2 q p) = BitVec.ofNat 32 f.val then 1 else 0) := by
  unfold eqBits
  show (((IntOp.cmpi .eq _ _).toNat : ℝ) : EReal) = _
  rw [broadcastInDim_apply _ bcast_S256x16x1_S256x16x4096_0_1_2 _ (ix3 q p f) (ix3 q p (0 : Fin 1)) (fun a =>
      match a with
      | ⟨0, _⟩ => by show q.val = if (256 : ℕ) = 1 then 0 else q.val; rw [if_neg (by decide)]
      | ⟨1, _⟩ => by show p.val = if (16 : ℕ) = 1 then 0 else p.val; rw [if_neg (by decide)]
      | ⟨2, _⟩ => by show (0 : ℕ) = if (1 : ℕ) = 1 then 0 else f.val; rw [if_pos rfl]),
    broadcastInDim_apply _ bcast_S256x16_S256x16x1_0_1 _ (ix3 q p (0 : Fin 1)) (ix2 q p) (fun a =>
      match a with
      | ⟨0, _⟩ => by show q.val = if (256 : ℕ) = 1 then 0 else q.val; rw [if_neg (by decide)]
      | ⟨1, _⟩ => by show p.val = if (16 : ℕ) = 1 then 0 else p.val; rw [if_neg (by decide)]),
    broadcastInDim_apply _ bcast_S1x1x4096_S256x16x4096_0_1_2 _ (ix3 q p f) (ix3 (0 : Fin 1) (0 : Fin 1) f) (fun a =>
      match a with
      | ⟨0, _⟩ => by show (0 : ℕ) = if (1 : ℕ) = 1 then 0 else q.val; rw [if_pos rfl]
      | ⟨1, _⟩ => by show (0 : ℕ) = if (1 : ℕ) = 1 then 0 else p.val; rw [if_pos rfl]
      | ⟨2, _⟩ => by show f.val = if (4096 : ℕ) = 1 then 0 else f.val; rw [if_neg (by decide)]),
    broadcastInDim_apply _ bcast_S4096_S1x1x4096_2 _ (ix3 (0 : Fin 1) (0 : Fin 1) f) (ix1 f) (fun a =>
      match a with
      | ⟨0, _⟩ => by show f.val = if (4096 : ℕ) = 1 then 0 else f.val; rw [if_neg (by decide)])]
  exact eq_bit_val _ _

theorem reduces_mid : S256x16x4096.Reduces [1] S256x4096 := by decide

/-- Over entry (q, f) of the sum along the patterns' entries, the source index with coordinate p is (q, p, f). -/
theorem lift_mid (q : Fin 256) (f : Fin 4096) (p : Fin 16) : reduces_mid.lift (ix2 q f) p = ix3 q p f := by
  funext c
  match c with
  | ⟨0, _⟩ => exact Fin.ext rfl
  | ⟨1, _⟩ => exact Fin.ext rfl
  | ⟨2, _⟩ => exact Fin.ext rfl

/-- Entry (f, q) of the table: how many entries of pattern q are feature f. -/
theorem tableOf_entry (idx : IVec S256x16 32) (f : Fin 4096) (q : Fin 256) :
    tableOf idx (ix2 f q) = cnt (∑ p : Fin 16, if idx (ix2 q p) = BitVec.ofNat 32 f.val then 1 else 0) := by
  unfold tableOf
  rw [truncf_apply, transpose_apply [1, 0] _ transposes_S256x4096_S4096x256_1_0 (ix2 f q) (ix2 q f) (fun b =>
      match b with
      | ⟨0, _⟩ => rfl
      | ⟨1, _⟩ => rfl)]
  unfold Host.reduceAdd
  rw [Ideal.hostReduceAdd_def, Ideal.hostReduceAdd_single reducesTo_S256x16x4096_S256x4096_d1 reduces_mid]
  show Ideal.ofBits .f32 0x00000000#32 + _ = _
  rw [Ideal.ofBits_zero_f32, zero_add, ← cnt_sum]
  refine Finset.sum_congr rfl fun p _ => ?_
  exact (congrArg (eqBits idx) (lift_mid q f p)).trans (eqBits_entry idx q p f)

end Cert.KernelIdeal.Table

end
-- ==== Proof.Spec.lean ====
/-
  What both programs compute, stated once.

  Row b of the input matches when some pattern q has every one of its sixteen named features above one half in row
  b. The feature an entry names is the index word read as a signed integer and clamped to the last feature; for an
  index in range (0 ≤ index < 4096) that is the index itself, and then the word equals a feature number exactly
  when it names that feature.

  The result bit of row b is 1 when the row matches and 0 otherwise.
-/
import proofs.«407068_j70205535421126_3_alg».proof.Proof.Count
import Idealize.ShloMosaic.Lib.StableHlo.Predicate

noncomputable section

namespace Cert.Match

open Idealize.ShloMosaic Idealize.ShloMosaic.ValueIdx
open scoped BigOperators

/-- The threshold: the word of one half. -/
abbrev half : EReal := Ideal.ofBits .f32 0x3F000000#32

/-- The feature a pattern entry names: the index word read signed, clamped to the last feature. -/
def sel (w : BitVec 32) : Fin 4096 := ⟨min w.toInt.toNat 4095, by omega⟩

/-- An index word in the range of the features. -/
def InRange (w : BitVec 32) : Prop := 0 ≤ w.toInt ∧ w.toInt < 4096

/-- An in-range index word equals the word of feature number f exactly when it names feature f. -/
theorem eq_ofNat_iff (w : BitVec 32) (hw : InRange w) (f : Fin 4096) : w = BitVec.ofNat 32 f.val ↔ sel w = f := by
  have hf : (BitVec.ofNat 32 f.val).toInt = f.val :=
    StableHlo.Predicate.toInt_ofNat_small f.val (by have := f.isLt; omega)
  obtain ⟨h0, h1⟩ := hw
  constructor
  · intro h
    refine Fin.ext ?_
    show min w.toInt.toNat 4095 = f.val
    rw [h, hf]
    have := f.isLt
    omega
  · intro h
    have hv : min w.toInt.toNat 4095 = f.val := congrArg Fin.val h
    refine BitVec.eq_of_toInt_eq ?_
    rw [hf]
    omega

/-- Row `b` matches: some pattern has all its named features above the threshold in that row. -/
def hit (X : (⟨2, ![16384, 4096]⟩ : Shape).Idx → EReal) (idx : (⟨2, ![256, 16]⟩ : Shape).Idx → BitVec 32) (b : Fin 16384) : Prop :=
  ∃ q : Fin 256, ∀ p : Fin 16, half < X (ix2 b (sel (idx (ix2 q p))))

open Classical in
/-- The result: bit b is 1 when row b matches. -/
def result (X : (⟨2, ![16384, 4096]⟩ : Shape).Idx → EReal) (idx : (⟨2, ![256, 16]⟩ : Shape).Idx → BitVec 32) :
    (⟨1, ![16384]⟩ : Shape).Idx → BitVec 1 :=
  fun j => if hit X idx (j 0) then 1#1 else 0#1

/-- A bit is decided by whether it is 1. -/
theorem bit_eq_of_iff {a : BitVec 1} {P : Prop} [Decidable P] (h : a = 1#1 ↔ P) : a = if P then 1#1 else 0#1 := by
  by_cases hp : P
  · rw [if_pos hp]; exact h.2 hp
  · rw [if_neg hp]
    exact eq_zero_of_ne_one fun e => hp (h.1 e)

end Cert.Match

end
-- ==== Proof.Join.lean ====
/-
  The law that joins the two programs, at one (row, pattern) entry.

  The kernel's accumulator entry is the sum over all features of the feature bit times the number of the pattern's
  entries naming that feature. Counting entry by entry instead, it is the number of the pattern's sixteen entries
  whose named feature is on; it equals the pattern length, sixteen, exactly when every named feature is on.
  This needs the indices in range: an out-of-range entry names no feature the table counts.
-/
import proofs.«407068_j70205535421126_3_alg».proof.Proof.Pay
import proofs.«407068_j70205535421126_3_alg».proof.Proof.Hit
import proofs.«407068_j70205535421126_3_alg».proof.Proof.Table
import proofs.«407068_j70205535421126_3_alg».proof.Proof.Spec

noncomputable section

namespace Cert.KernelIdeal.Join

open Idealize.ShloMosaic Idealize.ShloMosaic.ValueIdx
open Cert.KernelIdeal Cert.KernelIdeal.Gen Cert.Match Cert.KernelIdeal.Pay Cert.KernelIdeal.Hit Cert.KernelIdeal.Table
open scoped BigOperators

/-- The pattern length as the kernel spells it denotes sixteen. -/
theorem ofBits_16 : Ideal.ofBits .f32 0x41800000#32 = cnt 16 := by
  simp [Ideal.ofBits, Ideal.ieee, -EReal.coe_mul, cnt]; norm_num

/-- A feature bit is 1 exactly when the input is above the threshold. -/
theorem on_eq_one_iff (x : EReal) : on x = 1 ↔ Cert.Match.half < x := by
  unfold on
  by_cases h : Cert.KernelIdeal.Pay.half < x
  · rw [if_pos h]; exact ⟨fun _ => h, fun _ => rfl⟩
  · rw [if_neg h]; exact ⟨fun e => absurd e (by decide), fun e => absurd e h⟩

/-- Entry (r, q) of the accumulator over the whole feature axis equals the pattern length exactly when every
    feature that pattern q names is on in row r. -/
theorem row_hit (x0 : FVec Ideal S1024x4096 .f32) (idx : IVec S256x16 32) (hidx : ∀ q p, InRange (idx (ix2 q p)))
    (r : Fin 1024) (q : Fin 256) :
    (∑ f : Fin 4096, cnt (on (x0 (ix2 r f))) * tableOf idx (ix2 f q)) = sixteen
      ↔ ∀ p : Fin 16, Cert.Match.half < x0 (ix2 r (sel (idx (ix2 q p)))) := by
  have e : ∀ f : Fin 4096, (∑ p : Fin 16, if idx (ix2 q p) = BitVec.ofNat 32 f.val then 1 else 0)
      = ∑ p : Fin 16, if sel (idx (ix2 q p)) = f then 1 else 0 := fun f =>
    Finset.sum_congr rfl fun p _ => by simp only [eq_ofNat_iff _ (hidx q p) f]
  simp_rw [tableOf_entry, cnt_mul, e]
  rw [cnt_sum, show sixteen = cnt 16 from ofBits_16, cnt_inj,
    sum_mul_count (fun f => on (x0 (ix2 r f))) (fun p => sel (idx (ix2 q p))),
    sum_eq_card_iff _ (fun p => on_le_one _)]
  exact forall_congr' fun p => on_eq_one_iff _

end Cert.KernelIdeal.Join

end
-- ==== Proof.Point.lean ====
/-
  What grid point t of the matching kernel writes back, word by word.

  Point t sees rows 1024·t … 1024·t + 1023 of the input and the whole count table, which the host prologue built
  from the pattern indices. Word (0, 0, r) of its output block is 1 when row 1024·t + r matches some pattern — every
  feature the pattern names is above one half in that row — and 0 otherwise, provided the pattern indices are in
  range.
-/
import proofs.«407068_j70205535421126_3_alg».proof.Proof.Body
import proofs.«407068_j70205535421126_3_alg».proof.Proof.Acc
import proofs.«407068_j70205535421126_3_alg».proof.Proof.Join
import Idealize.ShloMosaic.Lib.StableHlo.Run

set_option maxRecDepth 16384

noncomputable section

namespace Cert.KernelIdeal.Point

open Idealize.ShloMosaic Idealize.ShloMosaic.TcCoe Idealize.ShloMosaic.ValueIdx Idealize.SL.Sem
open Cert.KernelIdeal Cert.KernelIdeal.Gen Cert.Match
open Cert.KernelIdeal.Body Cert.KernelIdeal.Acc Cert.KernelIdeal.Join Cert.KernelIdeal.Pay Cert.KernelIdeal.Hit Cert.KernelIdeal.Table
open scoped BigOperators

variable (m : (ℓ : Loc nD τ sig) → Buf (Elt Ideal) ℓ)

/-- The printed index maps over the grid: the input and output blocks move with the point along the rows; the table's
    block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 16 := Nat.lt_of_lt_of_le t.isLt N_0.le

/-- Point t's block of the input, and of the table, at their literal types. -/
abbrev xblk (c : Dev nD) (t : Fin cfg0.N) : Vec Ideal S1024x4096 .f32 := iblk m c 0 t
abbrev tblk (c : Dev nD) (t : Fin cfg0.N) : Vec Ideal S4096x256 .bf16 := iblk m c 1 t

/-- Row r of point t's input block is row 1024·t + r of the input. -/
theorem xblk_entry (c : Dev nD) (t : Fin cfg0.N) (r : Fin 1024) (f : Fin 4096) :
    xblk m c t (ix2 r f)
      = m ((c : Thread nD τ).loc main_arg0) (ix2 (⟨1024 * t.val + r.val, by have := t_lt t; omega⟩ : Fin 16384) f) := by
  obtain ⟨e0, e1, -⟩ := idx_facts t
  rw [← V_main_arg0 m c]
  show V m c main_arg0 (((cfg0.win 0).blk t).view.emb (ix2 r f)) = _
  refine congrArg (V m c main_arg0) (Shape.idx_ext₂ ?_ ?_)
  · show win0_0.index t (0 : Fin 2) * 1024 + 1 * r.val = 1024 * t.val + r.val; omega
  · show win0_0.index t (1 : Fin 2) * 4096 + 1 * f.val = f.val; omega

/-- The table as the region finds it: the host prologue's count table of the pattern indices. -/
theorem table_eq (c : Dev nD) :
    (V m c main_v9 : S4096x256.Idx → EReal) = tableOf (m ((c : Thread nD τ).loc main_arg1)) := by
  show StableHlo.after hostOps0 (fun b => m (c, b)) (Proc.devRef .tc main_v9) = _
  after_results
  rfl

/-- Every point's block of the table is the whole table. -/
theorem tblk_entry (c : Dev nD) (t : Fin cfg0.N) (f : Fin 4096) (q : Fin 256) :
    tblk m c t (ix2 f q) = tableOf (m ((c : Thread nD τ).loc main_arg1)) (ix2 f q) := by
  obtain ⟨-, -, e2, e3, -⟩ := idx_facts t
  rw [← table_eq m c]
  show V m c main_v9 (((cfg0.win 1).blk t).view.emb (ix2 f q)) = _
  refine congrArg (V m c main_v9) (Shape.idx_ext₂ ?_ ?_)
  · show win0_1.index t (0 : Fin 2) * 4096 + 1 * f.val = f.val; omega
  · show win0_1.index t (1 : Fin 2) * 256 + 1 * q.val = q.val; omega

/-- What point t leaves in its output block: the body's last payload of the accumulator after all the trips. -/
theorem outs_eq (c : Dev nD) (t : Fin cfg0.N) :
    outsAt0 m c t = k0_pay3 (accum (xblk m c t) (tblk m c t) k0_t1_loop.trips) := by
  unfold outsAt0
  exact out_eq c (grid0.coords t) (ms0_0 t) (hs0_0 t) (ms0_1 t) (hs0_1 t) (ms0_2 t) (hs0_2 t) scM0_0
    (Memref.isWhole_whole _) (xblk m c t) (tblk m c t)

/-- Some pattern's accumulator entry in row r of point t equals the pattern length exactly when row 1024·t + r matches. -/
theorem point_hit (c : Dev nD) (t : Fin cfg0.N) (r : Fin 1024)
    (hidx : ∀ q p, InRange (m ((c : Thread nD τ).loc main_arg1) (ix2 q p))) :
    (∃ q : Fin 256, accum (xblk m c t) (tblk m c t) k0_t1_loop.trips (ix2 r q) = sixteen)
      ↔ hit (m ((c : Thread nD τ).loc main_arg0)) (m ((c : Thread nD τ).loc main_arg1))
          (⟨1024 * t.val + r.val, by have := t_lt t; omega⟩ : Fin 16384) := by
  unfold hit
  refine exists_congr fun q => ?_
  rw [accum_all (xblk m c t) (tblk m c t) r q]
  simp_rw [tblk_entry m c t]
  rw [row_hit (xblk m c t) (m ((c : Thread nD τ).loc main_arg1)) hidx r q]
  exact forall_congr' fun p => by rw [xblk_entry]

open Classical in
/-- Word (0, 0, r) of point t's output block: 1 when row 1024·t + r matches, else 0. -/
theorem point_entry (c : Dev nD) (t : Fin cfg0.N) (r : Fin 1024)
    (hidx : ∀ q p, InRange (m ((c : Thread nD τ).loc main_arg1) (ix2 q p))) :
    outsAt0 m c t (ix3 (0 : Fin 1) (0 : Fin 1) r)
      = if hit (m ((c : Thread nD τ).loc main_arg0)) (m ((c : Thread nD τ).loc main_arg1))
          (⟨1024 * t.val + r.val, by have := t_lt t; omega⟩ : Fin 16384) then 1#32 else 0#32 := by
  rw [outs_eq, pay3_entry]
  have key := point_hit m c t r hidx
  by_cases h : hit (m ((c : Thread nD τ).loc main_arg0)) (m ((c : Thread nD τ).loc main_arg1))
      (⟨1024 * t.val + r.val, by have := t_lt t; omega⟩ : Fin 16384)
  · rw [if_pos h, decide_eq_true (key.2 h)]; rfl
  · rw [if_neg h, decide_eq_false (fun e => h (key.1 e))]; rfl

end Cert.KernelIdeal.Point

end
-- ==== Proof.Run.lean ====
/-
  The kernel's run, read: the output array block by block, then the host epilogue.

  The sixteen points' output blocks tile the [16, 1, 1024] array along its first axis, so word (t, 0, r) of the array
  is 1 when row 1024·t + r matches and 0 otherwise. The epilogue flattens the array to [16384] and tests every word
  against zero: bit b of the result is 1 exactly when row b matches.
-/
import proofs.«407068_j70205535421126_3_alg».proof.Proof.Point
import Idealize.ShloMosaic.Lib.Pipeline.Value
import Idealize.ShloMosaic.Lib.StableHlo.Run
import Idealize.ShloMosaic.Lib.StableHlo.Predicate

set_option maxRecDepth 16384

noncomputable section

namespace Cert.KernelIdeal.Run

open Idealize.ShloMosaic Idealize.ShloMosaic.TcCoe Idealize.ShloMosaic.ValueIdx Idealize.SL.Sem
open Cert.KernelIdeal Cert.KernelIdeal.Gen Cert.Match Cert.KernelIdeal.Point

variable (m : (ℓ : Loc nD τ sig) → Buf (Elt Ideal) ℓ) (ρ : Dev nD → PrngReg)

/-- The input row a word of the output array speaks of: word (t, 0, r) is row 1024·t + r. -/
def rowOf (j : S16x1x1024.Idx) : Fin 16384 :=
  ⟨1024 * (j 0).val + (j 2).val, by
    have h0 : (j 0).val < 16 := (j 0).isLt
    have h2 : (j 2).val < 1024 := (j 2).isLt
    omega⟩

open Classical in
/-- The output array as one function of the arguments: each word 1 when its row matches, else 0. -/
def words (X : (⟨2, ![16384, 4096]⟩ : Shape).Idx → EReal) (idx : (⟨2, ![256, 16]⟩ : Shape).Idx → BitVec 32) :
    S16x1x1024.Idx → BitVec 32 :=
  fun j => if hit X idx (rowOf j) then 1#32 else 0#32

/-- An index of an output block has zero on its two unit axes. -/
theorem eq_ix3_00 (y : S1x1x1024.Idx) : y = ix3 (0 : Fin 1) (0 : Fin 1) (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- WHAT POINT t WRITES BACK is block t of `words`. -/
theorem flushed_eq (c : Dev nD) (t : Fin cfg0.N)
    (hidx : ∀ q p, InRange (m ((c : Thread nD τ).loc main_arg1) (ix2 q p))) :
    (dats m 0 c).flushed 2 t = ((cfg0.win 2).blk t).view.read (Elt Ideal)
      (words (m ((c : Thread nD τ).loc main_arg0)) (m ((c : Thread nD τ).loc main_arg1))) := by
  show (cfg0.win 2).cut (grid0.coords t) ((dats m 0 c).after 2 t) = _
  rw [after0_2]
  obtain ⟨-, -, -, -, e4, e5, e6⟩ := idx_facts t
  funext y
  rw [eq_ix3_00 y]
  show outsAt0 m c t (ix3 (0 : Fin 1) (0 : Fin 1) (y 2))
    = words (m ((c : Thread nD τ).loc main_arg0)) (m ((c : Thread nD τ).loc main_arg1))
        (((cfg0.win 2).blk t).view.emb (ix3 (0 : Fin 1) (0 : Fin 1) (y 2)))
  rw [point_entry m c t (y 2) hidx]
  unfold words
  have e : rowOf (((cfg0.win 2).blk t).view.emb (ix3 (0 : Fin 1) (0 : Fin 1) (y 2)))
      = (⟨1024 * t.val + (y 2).val, by have := t_lt t; have h2 : (y 2).val < 1024 := (y 2).isLt; omega⟩ : Fin 16384) := by
    refine Fin.ext ?_
    show 1024 * (win0_2.index t (0 : Fin 3) * 1 + 1 * 0) + (win0_2.index t (2 : Fin 3) * 1024 + 1 * (y 2).val) = 1024 * t.val + (y 2).val
    omega
  rw [e]

/-- An index of the array is in point t's block iff each coordinate is in the block's range on its axis. -/
theorem mem_blk (t : Fin cfg0.N) (i : S16x1x1024.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v10).slice (win0_2.rect t)).set ↔ _
  rw [View.set_slice_whole, Rect.mem_set_unit]
  exact Iff.rfl

/-- Every word of the array is in the block of the point its first coordinate names. -/
theorem cover (i : S16x1x1024.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1024 := (i 2).isLt
  obtain ⟨t, ht⟩ : ∃ t : Fin cfg0.N, t.val = (i 0).val :=
    ⟨⟨(i 0).val, by rw [show cfg0.N = grid0.N from rfl, N_0]; exact h0⟩, rfl⟩
  refine ⟨t, flush0_2 t, ?_⟩
  rw [mem_blk]
  obtain ⟨-, -, -, -, e4, e5, e6⟩ := idx_facts t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1024 ≤ (i 2).val ∧ (i 2).val < win0_2.index t (2 : Fin 3) * 1024 + 1024
    omega

/-- THE OUTPUT ARRAY after the region: `words` of the arguments. -/
theorem final (c : Dev nD) (hidx : ∀ q p, InRange (m ((c : Thread nD τ).loc main_arg1) (ix2 q p))) :
    (dats m 0 c).arrAt 2 cfg0.N
      = words (m ((c : Thread nD τ).loc main_arg0)) (m ((c : Thread nD τ).loc main_arg1)) :=
  (dats m 0 c).arrAt_eq_of_cover 2 _ (fun t _ => flushed_eq m c t hidx) cover

/-- The flattened position b is word (b / 1024, 0, b % 1024) of the array, and that word speaks of row b. -/
theorem flat_word (W : S16x1x1024.Idx → BitVec 32) (b : Fin 16384) :
    shapeCast S16384 W shapeCasts_S16x1x1024_S16384 (ix1 b)
      = W (ix3 (⟨b.val / 1024, by have := b.isLt; omega⟩ : Fin 16) (0 : Fin 1) (⟨b.val % 1024, Nat.mod_lt _ (by decide)⟩ : Fin 1024)) :=
  shapeCast_apply W shapeCasts_S16x1x1024_S16384 _ _ (by
    rw [Shape.rowMajor_val_three, Shape.rowMajor_val_one]
    show (b.val / 1024 * 1 + 0) * 1024 + b.val % 1024 = b.val
    omega)

theorem rowOf_flat (b : Fin 16384) :
    rowOf (ix3 (⟨b.val / 1024, by have := b.isLt; omega⟩ : Fin 16) (0 : Fin 1) (⟨b.val % 1024, Nat.mod_lt _ (by decide)⟩ : Fin 1024)) = b :=
  Fin.ext (by show 1024 * (b.val / 1024) + b.val % 1024 = b.val; omega)

/-- THE RESULT after the epilogue: bit b is 1 exactly when row b matches. -/
theorem tail_eq (c : Dev nD) (hidx : ∀ q p, InRange (m ((c : Thread nD τ).loc main_arg1) (ix2 q p))) :
    Pipeline.afterTail₀ cfgs (dats m) 0 (V0 m) [hostOps1] c main_v14
      = result (m ((c : Thread nD τ).loc main_arg0)) (m ((c : Thread nD τ).loc main_arg1)) := by
  have hw : Pipeline.withArrays (cfgs 0).spec c (V0 m c) (fun w => (dats m 0 c).arrAt w (cfgs 0).N) (Proc.tc.devRef main_v10)
      = words (m ((c : Thread nD τ).loc main_arg0)) (m ((c : Thread nD τ).loc main_arg1)) :=
    (Pipeline.withArrays_arr spec0 launch0.win.arr_inj c _ _ 2).trans (final m c hidx)
  unfold Pipeline.afterTail₀
  show StableHlo.after hostOps1 _ (Proc.devRef .tc main_v14) = _
  after_results
  funext j
  obtain ⟨b, rfl⟩ : ∃ b : Fin 16384, j = ix1 b := ⟨j 0, eq_ix1 j⟩
  show IntOp.cmpi .ne
      (shapeCast S16384 (Pipeline.withArrays (cfgs 0).spec c (V0 m c) (fun w => (dats m 0 c).arrAt w (cfgs 0).N)
        (Proc.tc.devRef main_v10)) shapeCasts_S16x1x1024_S16384 (ix1 b))
      (broadcastInDim S16384 ![] bcast_S_S16384 (constantI S_ 32 0#32) (ix1 b)) = _
  rw [hw, StableHlo.Predicate.bcast_scalar _ h_S_ _ _, flat_word]
  unfold words result
  rw [rowOf_flat]
  show IntOp.cmpi .ne _ 0#32 = _
  by_cases h : hit (m ((c : Thread nD τ).loc main_arg0)) (m ((c : Thread nD τ).loc main_arg1)) b
  · rw [if_pos h, if_pos h]; decide
  · rw [if_neg h, if_neg h]; decide

/-- The kernel's run re-posted: the result at the specified function of the arguments, the arguments unchanged. -/
theorem run (hpre : ∀ (c : Dev nD) q p, InRange (m ((c : Thread nD τ).loc main_arg1) (ix2 q p))) :
    θ_run defs (onTc (τ := τ) (main (F := Ideal))) ⟨m, fun _ => 0, ρ⟩ fun r => ∀ c : Dev nD,
      r.2.mem ((c.tc : Thread nD τ).loc main_v14)
          = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v14 (Pipeline.mem_restRefs_of main_v14 (by decide) (by decide))).trans (tail_eq m c (hpre c)),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Run

end
-- ==== Proof.LibColGather.lean ====
/-
  A gather of COLUMNS by a table of indices, read at an entry, and reductions of bits by `and` and by `or` read at
  one result index.

  `x[:, idx]` for an operand `x : [A, N]` and an integer table `idx : [R, C]` lowers to `stablehlo.gather` with the
  start indices as an `[R, C, 1]` array (index vector on axis 2), the operand's last axis collapsed and named by the
  start index map, and its leading axis an offset axis taken whole. Result entry (a, r, c) is then operand entry
  (a, idx[r, c, 0]), the index read signed and clamped into [0, N − 1] (StableHLO clamps every start index so that
  the slice fits).

  A fold of bits by `and` from 1 is 1 exactly when every bit is 1; a fold by `or` from 0 is 1 exactly when some bit is.
-/
import Idealize.ShloMosaic.Lib.ValueIdx
import Idealize.ShloMosaic.Lib.Affine
import Idealize.ShloMosaic.PureOps.Reduce

noncomputable section

namespace Cert.LibColGather

open Idealize.ShloMosaic Idealize.ShloMosaic.ValueIdx

variable {α : Type}

/-- The dimension numbers of a column gather out of `[A, N]` by start indices `[R, C, 1]`. -/
abbrev colDims (A N R C : Nat)
    (wf : GatherDims.WF ⟨2, ![A, N]⟩ ⟨3, ![R, C, 1]⟩ ⟨3, ![A, R, C]⟩ [0] [1] [] [1] [] 2 ![A, 1]) :
    GatherDims ⟨2, ![A, N]⟩ ⟨3, ![R, C, 1]⟩ ⟨3, ![A, R, C]⟩ where
  offsetDims := [0]
  collapsedSliceDims := [1]
  operandBatchingDims := []
  startIndicesBatchingDims := []
  startIndexMap := [1]
  indexVectorDim := 2
  sliceSizes := ![A, 1]
  wf := wf

/-- Result entry `(a, r, c)` of the column gather is operand entry `(a, clamp idx[r, c, 0])`. -/
theorem colGather_apply {A N R C w : Nat} (hN : 0 < N)
    (wf : GatherDims.WF ⟨2, ![A, N]⟩ ⟨3, ![R, C, 1]⟩ ⟨3, ![A, R, C]⟩ [0] [1] [] [1] [] 2 ![A, 1])
    (x : (⟨2, ![A, N]⟩ : Shape).Idx → α) (idx : IVec ⟨3, ![R, C, 1]⟩ w) (a : Fin A) (r : Fin R) (c : Fin C) :
    Host.gather (colDims A N R C wf) x idx (ix3 a r c)
      = x (ix2 a ⟨min (idx (ix3 r c (0 : Fin 1))).toInt.toNat (N - 1), by omega⟩) := by
  unfold Host.gather
  congr 1
  funext ax
  refine Fin.ext ?_
  show (colDims A N R C wf).start (ix3 a r c) idx ax + (colDims A N R C wf).batchCoord (ix3 a r c) ax
    + (colDims A N R C wf).offCoord (ix3 a r c) ax = _
  rw [GatherDims.batchCoord_eq_zero _ _ _ List.not_mem_nil, Nat.add_zero]
  match ax with
  | ⟨1, _⟩ =>
    rw [GatherDims.offCoord_eq_zero _ _ _ (fun h => ((GatherDims.mem_sKept _ _).mp h).1 (List.mem_singleton.mpr rfl)),
      Nat.add_zero]
    unfold GatherDims.start
    rw [dif_pos (show (⟨1, by decide⟩ : Fin 2) ∈ (colDims A N R C wf).startIndexMap from List.mem_singleton.mpr rfl)]
    have hsi : (colDims A N R C wf).siIdx (ix3 a r c) ⟨List.idxOf (⟨1, by decide⟩ : Fin 2) (colDims A N R C wf).startIndexMap,
        List.idxOf_lt_length_iff.2 (List.mem_singleton.mpr rfl)⟩ = ix3 r c (0 : Fin 1) := by
      funext d; refine Fin.ext ?_
      match d with
      | ⟨0, _⟩ => rfl
      | ⟨1, _⟩ => rfl
      | ⟨2, _⟩ => rfl
    rw [hsi]
    rfl
  | ⟨0, _⟩ =>
    unfold GatherDims.start
    rw [dif_neg (fun h => absurd (congrArg Fin.val (List.mem_singleton.mp h)) (by simp)), Nat.zero_add]
    rfl

/-- A fold of bits by `and` from 1 is 1 exactly when every bit folded is 1. -/
theorem fold_andi_eq_one {ι : Type} [DecidableEq ι] (s : Finset ι) (g : ι → BitVec 1) :
    s.fold IntOp.andi 1#1 g = 1#1 ↔ ∀ k ∈ s, g k = 1#1 := by
  induction s using Finset.induction_on with
  | empty => simp
  | insert a s ha ih =>
    rw [Finset.fold_insert ha, IntOp.andi_eq_one, ih]
    simp [Finset.forall_mem_insert]

/-- A fold of bits by `or` from 0 is 1 exactly when some bit folded is 1. -/
theorem fold_ori_eq_one {ι : Type} [DecidableEq ι] (s : Finset ι) (g : ι → BitVec 1) :
    s.fold IntOp.ori 0#1 g = 1#1 ↔ ∃ k ∈ s, g k = 1#1 := by
  induction s using Finset.induction_on with
  | empty => simp
  | insert a s ha ih =>
    rw [Finset.fold_insert ha, IntOp.ori_eq_one, ih]
    simp [Finset.exists_mem_insert]

end Cert.LibColGather

end
-- ==== Proof.RefValue.lean ====
/-
  The reference's result, bit by bit.

  The reference thresholds the input, normalises negative indices by adding the feature count, gathers for every
  row the thresholded columns the patterns name, reduces by `and` over each pattern's entries and by `or` over the
  patterns. For indices in range the normalisation changes nothing and the gather's clamp does not bind, so bit b of
  the result is 1 exactly when row b matches some pattern.
-/
import proofs.«407068_j70205535421126_3_alg».proof.Proof.Gen.ReferenceIdeal.Read
import proofs.«407068_j70205535421126_3_alg».proof.Proof.Spec
import proofs.«407068_j70205535421126_3_alg».proof.Proof.LibColGather
import Idealize.ShloMosaic.Lib.ValueIdx
import Idealize.ShloMosaic.Lib.Affine
import Idealize.ShloMosaic.PureOps.Reduce

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Match Cert.LibColGather

/-- An index in range is not negative, so the normalised index is the index itself. -/
theorem v6_entry (idx : IVec S256x16 32) (q : Fin 256) (p : Fin 16) (h : InRange (idx (ix2 q p))) :
    val_main_v6 (F := Ideal) idx (ix2 q p) = idx (ix2 q p) := by
  rw [val_main_v6_apply]
  have hb : val_main_v3 (F := Ideal) idx (ix2 q p) = 0#1 := by
    refine eq_zero_of_ne_one fun e => ?_
    rw [val_main_v3_apply, val_main_v2_apply, val_main_c_apply, IntOp.cmpi_slt] at e
    have h0 : (0#32 : BitVec 32).toInt = 0 := by decide
    obtain ⟨h1, _⟩ := h
    omega
  rw [hb, select_zero]

/-- The start-index array at (q, p, 0) is the normalised index (q, p). -/
theorem v7_entry (idx : IVec S256x16 32) (q : Fin 256) (p : Fin 16) (h : InRange (idx (ix2 q p))) :
    val_main_v7 (F := Ideal) idx (ix3 q p (0 : Fin 1)) = idx (ix2 q p) := by
  rw [val_main_v7_apply]
  have e : idx_main_v7 (ix3 q p (0 : Fin 1)) = ix2 q p := by
    funext a
    match a with
    | ⟨0, _⟩ => rfl
    | ⟨1, _⟩ => rfl
  rw [e, v6_entry idx q p h]

/-- The thresholded input at an entry is 1 exactly when the input is above one half. -/
theorem v1_entry (X : FVec Ideal S16384x4096 .f32) (i : S16384x4096.Idx) :
    val_main_v1 (F := Ideal) X i = 1#1 ↔ half < X i := by
  rw [val_main_v1_apply, val_main_v0_apply, val_main_cst_apply]
  show Ideal.cmp .ogt (X i) half = 1#1 ↔ _
  unfold Ideal.cmp
  rw [StableHlo.Predicate.ofBool_eq_one_iff, decide_eq_true_eq]

/-- The gathered bit (b, q, p): the thresholded input of row b at the feature entry p of pattern q names. -/
theorem v8_entry (X : FVec Ideal S16384x4096 .f32) (idx : IVec S256x16 32) (b : Fin 16384) (q : Fin 256) (p : Fin 16)
    (h : InRange (idx (ix2 q p))) :
    val_main_v8 (F := Ideal) X idx (ix3 b q p) = val_main_v1 (F := Ideal) X (ix2 b (sel (idx (ix2 q p)))) := by
  unfold val_main_v8
  show Host.gather (colDims 16384 4096 256 16 gather_S16384x4096_S256x16x1_S16384x256x16_0_1_n_n_1_2_163841_wf) _ _ _ = _
  rw [colGather_apply (by decide)]
  refine congrArg (val_main_v1 (F := Ideal) X) (congrArg (ix2 b) (Fin.ext ?_))
  show min (val_main_v7 (F := Ideal) idx (ix3 q p (0 : Fin 1))).toInt.toNat (4096 - 1) = min (idx (ix2 q p)).toInt.toNat 4095
  rw [v7_entry idx q p h]

theorem reduces_last : S16384x256x16.Reduces [2] S16384x256 := by decide
theorem reduces_pat : S16384x256.Reduces [1] S16384 := by decide

theorem lift_last (b : Fin 16384) (q : Fin 256) (p : Fin 16) : reduces_last.lift (ix2 b q) p = ix3 b q p := by
  funext c
  match c with
  | ⟨0, _⟩ => exact Fin.ext rfl
  | ⟨1, _⟩ => exact Fin.ext rfl
  | ⟨2, _⟩ => exact Fin.ext rfl

theorem lift_pat (b : Fin 16384) (q : Fin 256) : reduces_pat.lift (ix1 b) q = ix2 b q := by
  funext c
  match c with
  | ⟨0, _⟩ => exact Fin.ext rfl
  | ⟨1, _⟩ => exact Fin.ext rfl

/-- Pattern q holds in row b: the `and` over its entries is 1 exactly when every named feature is above one half. -/
theorem v9_entry (X : FVec Ideal S16384x4096 .f32) (idx : IVec S256x16 32) (hidx : ∀ q p, InRange (idx (ix2 q p)))
    (b : Fin 16384) (q : Fin 256) :
    val_main_v9 (F := Ideal) X idx (ix2 b q) = 1#1 ↔ ∀ p : Fin 16, half < X (ix2 b (sel (idx (ix2 q p)))) := by
  have e : val_main_v9 (F := Ideal) X idx (ix2 b q)
      = (Finset.univ : Finset (Fin 16)).fold IntOp.andi 1#1 (fun p => val_main_v8 (F := Ideal) X idx (ix3 b q p)) := by
    unfold val_main_v9
    rw [Host.reduce_eq_fold_single IntOp.andi _ _ reducesTo_S16384x256x16_S16384x256_d2 reduces_last h_S_ (ix2 b q)]
    exact congrArg (fun g => (Finset.univ : Finset (Fin 16)).fold IntOp.andi 1#1 g)
      (funext fun p => congrArg (val_main_v8 (F := Ideal) X idx) (lift_last b q p))
  rw [e, fold_andi_eq_one]
  refine ⟨fun h p => ?_, fun h p _ => ?_⟩
  · have := h p (Finset.mem_univ _)
    rw [v8_entry X idx b q p (hidx q p), v1_entry] at this
    exact this
  · rw [v8_entry X idx b q p (hidx q p), v1_entry]
    exact h p

/-- The reference's result is the specified one: bit b is 1 exactly when row b matches some pattern. -/
theorem v10_eq (X : FVec Ideal S16384x4096 .f32) (idx : IVec S256x16 32) (hidx : ∀ q p, InRange (idx (ix2 q p))) :
    val_main_v10 (F := Ideal) X idx = result X idx := by
  funext j
  obtain ⟨b, rfl⟩ : ∃ b : Fin 16384, j = ix1 b := ⟨j 0, eq_ix1 j⟩
  have hl : reduces_pat.lift (ix1 b) = fun q : Fin 256 => ix2 b q := funext fun q => lift_pat b q
  have key : val_main_v10 (F := Ideal) X idx (ix1 b) = 1#1 ↔ hit X idx b := by
    unfold val_main_v10
    rw [Host.reduce_eq_fold_single IntOp.ori _ _ reducesTo_S16384x256_S16384_d1 reduces_pat h_S_ (ix1 b), hl,
      val_main_c_2_apply]
    refine (fold_ori_eq_one _ _).trans ?_
    unfold hit
    refine ⟨fun ⟨q, _, h⟩ => ⟨q, ?_⟩, fun ⟨q, h⟩ => ⟨q, Finset.mem_univ _, ?_⟩⟩
    · have h' : val_main_v9 (F := Ideal) X idx (ix2 b q) = 1#1 :=
        (Function.comp_apply (f := val_main_v9 (F := Ideal) X idx) (g := fun q : Fin 256 => ix2 b q) (x := q)).symm.trans h
      exact (v9_entry X idx hidx b q).1 h'
    · exact (Function.comp_apply (f := val_main_v9 (F := Ideal) X idx) (g := fun q : Fin 256 => ix2 b q) (x := q)).trans
        ((v9_entry X idx hidx b q).2 h)
  unfold result
  exact @bit_eq_of_iff _ _ (Classical.propDecidable _) key

end Cert.ReferenceIdeal.RefValue

end
-- ==== Proof.PreRange.lean ====
/-
  The precondition read back: it says of the pattern indices that every one lies in the range of the features,
  0 ≤ index < 4096 (and, of the float input, that it is finite, which nothing here needs).

  The printed predicate ends in the conjunction of two `jnp.all`s; the second is the `and`-reduction of the entrywise
  conjunction of the two signed comparisons index ≥ 0 and index < 4096.
-/
import proofs.«407068_j70205535421126_3_alg».proof.Pre_finite_inputs
import proofs.«407068_j70205535421126_3_alg».proof.Proof.Gen.Pre_finite_inputs
import proofs.«407068_j70205535421126_3_alg».proof.Proof.Spec
import Idealize.ShloMosaic.Lib.ReduceAll
import Idealize.ShloMosaic.Lib.Affine
import Idealize.ShloMosaic.Lib.StableHlo.Predicate

noncomputable section

namespace Cert.Pre_finite_inputs.Range

open Idealize.ShloMosaic Idealize.ShloMosaic.ValueIdx
open Cert.Pre_finite_inputs Cert.Pre_finite_inputs.Gen Cert.Match

instance : Subsingleton S_.Idx := ⟨fun a b => funext fun d => d.elim0⟩

variable {F : FTy → Type} [FloatOps F]

/-- Where the precondition holds, every pattern index is in the range of the features. -/
theorem inRange_of_pre (x : FVec F S16384x4096 .f32) (idx : IVec S256x16 32)
    (h : fn (F := F) x idx = fun _ => 1#1) : ∀ (q : Fin 256) (p : Fin 16), InRange (idx (ix2 q p)) := by
  intro q p
  have h0 := congrFun h ix0
  dsimp only [fn] at h0
  obtain ⟨-, h9⟩ := IntOp.andi_eq_one.1 h0
  have h8 := Host.reduce_andi_all _ _ _ _ _ h9 (ix2 q p)
  obtain ⟨hge, hlt⟩ := IntOp.andi_eq_one.1 h8
  have e0 : broadcastInDim S256x16 ![] bcast_S_S256x16 (constantI S_ 32 0#32) (ix2 q p) = 0#32 :=
    StableHlo.Predicate.bcast_scalar _ h_S_ _ _
  have e1 : broadcastInDim S256x16 ![] bcast_S_S256x16 (constantI S_ 32 4096#32) (ix2 q p) = 4096#32 :=
    StableHlo.Predicate.bcast_scalar _ h_S_ _ _
  have hge' : IntOp.cmpi .sge (idx (ix2 q p)) 0#32 = 1#1 := e0 ▸ hge
  have hlt' : IntOp.cmpi .slt (idx (ix2 q p)) 4096#32 = 1#1 := e1 ▸ hlt
  rw [IntOp.cmpi_sge] at hge'
  rw [IntOp.cmpi_slt] at hlt'
  have z0 : (0#32 : BitVec 32).toInt = 0 := by decide
  have z1 : (4096#32 : BitVec 32).toInt = 4096 := by decide
  exact ⟨by omega, by omega⟩

end Cert.Pre_finite_inputs.Range

end
-- ==== Proof.lean ====
/-
  The certificate of the pattern-matching kernel against its reference, over the extended reals.

  Both programs decide, for each of the 16384 input rows, whether some one of the 256 patterns has all sixteen of
  the features it names above one half in that row. The reference gathers the thresholded columns each pattern names
  and reduces by `and`, then by `or`. The kernel multiplies the thresholded row by a table counting how often each
  pattern names each feature, eight slices of 512 features at a time, and tests the sum against the pattern length:
  counted entry by entry, the sum is the number of the pattern's entries whose feature is on, which is sixteen exactly
  when all are. The two agree when every pattern index lies in the range of the features, 0 ≤ index < 4096, which
  the precondition states: outside it the reference indexes out of range (it wraps or clamps the index) while the
  count table sees no such feature.

  The three frames are the generated ones (the reference's is its generated run with the result dropped); no
  idealization rule applied, so `preserves` is trivial.
-/
import proofs.«407068_j70205535421126_3_alg».proof.Defs
import proofs.«407068_j70205535421126_3_alg».proof.Proof.Gen.Kernel
import proofs.«407068_j70205535421126_3_alg».proof.Proof.Gen.Kernel.Skeleton
import proofs.«407068_j70205535421126_3_alg».proof.Proof.Gen.Kernel.Loops
import proofs.«407068_j70205535421126_3_alg».proof.Proof.Gen.Kernel.Launch
import proofs.«407068_j70205535421126_3_alg».proof.Proof.Gen.Kernel.Points
import proofs.«407068_j70205535421126_3_alg».proof.Proof.Gen.Kernel.Frame
import proofs.«407068_j70205535421126_3_alg».proof.Proof.Gen.KernelIdeal
import proofs.«407068_j70205535421126_3_alg».proof.Proof.Gen.KernelIdeal.Skeleton
import proofs.«407068_j70205535421126_3_alg».proof.Proof.Gen.KernelIdeal.Loops
import proofs.«407068_j70205535421126_3_alg».proof.Proof.Gen.KernelIdeal.Launch
import proofs.«407068_j70205535421126_3_alg».proof.Proof.Gen.KernelIdeal.Points
import proofs.«407068_j70205535421126_3_alg».proof.Proof.Gen.KernelIdeal.Frame
import proofs.«407068_j70205535421126_3_alg».proof.Proof.Gen.ReferenceIdeal
import proofs.«407068_j70205535421126_3_alg».proof.Proof.Gen.Pre_finite_inputs
import proofs.«407068_j70205535421126_3_alg».proof.Proof.Gen.ReferenceIdeal.Run
import proofs.«407068_j70205535421126_3_alg».proof.Proof.Gen.ReferenceIdeal.Read
import proofs.«407068_j70205535421126_3_alg».proof.Proof.Run
import proofs.«407068_j70205535421126_3_alg».proof.Proof.RefValue
import proofs.«407068_j70205535421126_3_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem Cert.Match

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition the pattern indices are in range; then the kernel's result (its run read block by block,
    then through the host epilogue) and the reference's (its run read operation by operation) are the same bits:
    bit b is 1 exactly when row b matches some pattern. -/
theorem algebraic : Cert.algebraic_KernelIdeal_ReferenceIdeal := by
  intro m ρ m' ρ' hpre hagree
  have hr : ∀ (c : Dev Cert.KernelIdeal.nD) (q : Fin 256) (p : Fin 16),
      InRange (m ((c.tc : Thread Cert.KernelIdeal.nD Cert.KernelIdeal.τ).loc Cert.KernelIdeal.main_arg1) (ix2 q p)) :=
    fun c => Cert.Pre_finite_inputs.Range.inRange_of_pre _ _ (hpre c)
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  exact Cert.ReferenceIdeal.RefValue.v10_eq _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
